-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S1x64 : Shape := ⟨2, ![1, 64]⟩
abbrev S5000x64 : Shape := ⟨2, ![5000, 64]⟩
abbrev S_ : Shape := ⟨0, ![]⟩
abbrev S50000 : Shape := ⟨1, ![50000]⟩
abbrev S50000x1 : Shape := ⟨2, ![50000, 1]⟩
abbrev S800000x1 : Shape := ⟨2, ![800000, 1]⟩
abbrev S800000x64 : Shape := ⟨2, ![800000, 64]⟩

abbrev nBuf : Space → Nat
  | .hbm => 131
  | .vmem => 6
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S1x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S_, .i32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x64, .f32⟩
  | 33 => ⟨S50000x64, .f32⟩
  | 34 => ⟨S50000x64, .f32⟩
  | 35 => ⟨S_, .f32⟩
  | 36 => ⟨S_, .f32⟩
  | 37 => ⟨S_, .f32⟩
  | 38 => ⟨S_, .f32⟩
  | 39 => ⟨S50000, .f32⟩
  | 40 => ⟨S50000x1, .f32⟩
  | 41 => ⟨S50000x1, .f32⟩
  | 42 => ⟨S50000x1, .f32⟩
  | 43 => ⟨S_, .f32⟩
  | 44 => ⟨S_, .i1⟩
  | 45 => ⟨S_, .f32⟩
  | 46 => ⟨S_, .f32⟩
  | 47 => ⟨S50000x1, .f32⟩
  | 48 => ⟨S50000x1, .f32⟩
  | 49 => ⟨S50000x64, .f32⟩
  | 50 => ⟨S50000x64, .f32⟩
  | 51 => ⟨S_, .f32⟩
  | 52 => ⟨S50000x1, .f32⟩
  | 53 => ⟨S50000x1, .f32⟩
  | 54 => ⟨S50000x1, .f32⟩
  | 55 => ⟨S50000x64, .f32⟩
  | 56 => ⟨S50000x64, .f32⟩
  | 57 => ⟨S_, .f32⟩
  | 58 => ⟨S50000, .f32⟩
  | 59 => ⟨S50000x1, .f32⟩
  | 60 => ⟨S50000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x1, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S800000x1, .f32⟩
  | 93 => ⟨S800000x1, .f32⟩
  | 94 => ⟨S800000x1, .f32⟩
  | 95 => ⟨S800000x1, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S800000, .f32⟩
  | 112 => ⟨S_, .f32⟩
  | 113 => ⟨S800000, .f32⟩
  | 114 => ⟨S800000, .f32⟩
  | 115 => ⟨S800000x1, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S800000x64, .f32⟩
  | 126 => ⟨S800000x64, .f32⟩
  | 127 => ⟨S_, .f32⟩
  | _ => ⟨S50000x64, .f32⟩

abbrev hbmTy0_1 (i : Nat) : BufTy := match i % 128 with
  | 0 => ⟨S50000x64, .f32⟩
  | 1 => ⟨S800000x1, .i32⟩
  | 2 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_2 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_3 : Ref sig .tc := ⟨.hbm, 61, rfl⟩
abbrev main_v26 : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_5 : Ref sig .tc := ⟨.hbm, 70, rfl⟩
abbrev main_v33 : Ref sig .tc := ⟨.hbm, 71, rfl⟩
abbrev main_v34 : Ref sig .tc := ⟨.hbm, 72, rfl⟩
abbrev main_c_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_7 : Ref sig .tc := ⟨.hbm, 79, rfl⟩
abbrev main_v40 : Ref sig .tc := ⟨.hbm, 80, rfl⟩
abbrev main_cst_8 : Ref sig .tc := ⟨.hbm, 81, rfl⟩
abbrev main_v41 : Ref sig .tc := ⟨.hbm, 82, rfl⟩
abbrev main_v42 : Ref sig .tc := ⟨.hbm, 83, rfl⟩
abbrev main_cst_9 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_cst_11 : Ref sig .tc := ⟨.hbm, 88, rfl⟩
abbrev main_v45 : Ref sig .tc := ⟨.hbm, 89, rfl⟩
abbrev main_cst_12 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_13 : Ref sig .tc := ⟨.hbm, 96, rfl⟩
abbrev main_v51 : Ref sig .tc := ⟨.hbm, 97, rfl⟩
abbrev main_cst_14 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_15 : Ref sig .tc := ⟨.hbm, 102, rfl⟩
abbrev main_v55 : Ref sig .tc := ⟨.hbm, 103, rfl⟩
abbrev main_v56 : Ref sig .tc := ⟨.hbm, 104, rfl⟩
abbrev main_c_16 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_17 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_c_18 : Ref sig .tc := ⟨.hbm, 116, rfl⟩
abbrev main_v66 : Ref sig .tc := ⟨.hbm, 117, rfl⟩
abbrev main_v67 : Ref sig .tc := ⟨.hbm, 118, rfl⟩
abbrev main_c_19 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_20 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x1_S_d0_1 : S800000x1.ReducesTo [0, 1] S_
  bcast_S_S800000x1 : S_.BroadcastsInDim S800000x1 (![] : Fin 0 → Fin S800000x1.rank)
  reducesTo_S800000x1_S800000_d1 : S800000x1.ReducesTo [1] S800000
  bcast_S_S50000 : S_.BroadcastsInDim S50000 (![] : Fin 0 → Fin S50000.rank)
  bcast_S800000x1_S800000x64_0_1 : S800000x1.BroadcastsInDim S800000x64 (![0, 1] : Fin 2 → Fin S800000x64.rank)
  dot_S5000x64_S64x64_S5000x64_1_0_0_1_n_n_wf : DotDims.WF S5000x64 S64x64 S5000x64 [1] [0] [0] [1] [] []
  dot_S50000x64_S64x64_S50000x64_1_0_0_1_n_n_wf : DotDims.WF S50000x64 S64x64 S50000x64 [1] [0] [0] [1] [] []
  gather_S50000x1_S800000x1_S800000x1_1_0_n_n_0_1_11_wf : GatherDims.WF S50000x1 S800000x1 S800000x1 [1] [0] [] [0] [] 1 ![1, 1]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x64 : Shape := ⟨2, ![1, 64]⟩
abbrev S_ : Shape := ⟨0, ![]⟩
abbrev S50000 : Shape := ⟨1, ![50000]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 133
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S50000x64, .f32⟩
  | 7 => ⟨S1x64, .f32⟩
  | 8 => ⟨S50000x64, .f32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S_, .f32⟩
  | 18 => ⟨S50000, .f32⟩
  | 19 => ⟨S50000x1, .f32⟩
  | 20 => ⟨S_, .f32⟩
  | 21 => ⟨S50000x1, .f32⟩
  | 22 => ⟨S50000x1, .f32⟩
  | 23 => ⟨S_, .i32⟩
  | 24 => ⟨S_, .f32⟩
  | 25 => ⟨S50000, .f32⟩
  | 26 => ⟨S50000x1, .f32⟩
  | 27 => ⟨S_, .f32⟩
  | 28 => ⟨S50000x1, .f32⟩
  | 29 => ⟨S50000x1, .f32⟩
  | 30 => ⟨S50000x64, .f32⟩
  | 31 => ⟨S50000x64, .f32⟩
  | 32 => ⟨S50000x64, .f32⟩
  | 33 => ⟨S_, .f32⟩
  | 34 => ⟨S_, .f32⟩
  | 35 => ⟨S_, .f32⟩
  | 36 => ⟨S_, .f32⟩
  | 37 => ⟨S50000, .f32⟩
  | 38 => ⟨S50000x1, .f32⟩
  | 39 => ⟨S50000x1, .f32⟩
  | 40 => ⟨S50000x1, .f32⟩
  | 41 => ⟨S_, .f32⟩
  | 42 => ⟨S_, .i1⟩
  | 43 => ⟨S_, .f32⟩
  | 44 => ⟨S_, .f32⟩
  | 45 => ⟨S50000x1, .f32⟩
  | 46 => ⟨S50000x1, .f32⟩
  | 47 => ⟨S50000x64, .f32⟩
  | 48 => ⟨S50000x64, .f32⟩
  | 49 => ⟨S_, .f32⟩
  | 50 => ⟨S50000x1, .f32⟩
  | 51 => ⟨S50000x1, .f32⟩
  | 52 => ⟨S50000x1, .f32⟩
  | 53 => ⟨S50000x64, .f32⟩
  | 54 => ⟨S50000x64, .f32⟩
  | 55 => ⟨S_, .f32⟩
  | 56 => ⟨S50000, .f32⟩
  | 57 => ⟨S50000x1, .f32⟩
  | 58 => ⟨S50000x1, .f32⟩
  | 59 => ⟨S1x800000, .i32⟩
  | 60 => ⟨S800000, .i32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x1, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x1, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S800000x1, .f32⟩
  | 95 => ⟨S800000x1, .f32⟩
  | 96 => ⟨S800000x1, .f32⟩
  | 97 => ⟨S800000x1, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S800000, .f32⟩
  | 114 => ⟨S_, .f32⟩
  | 115 => ⟨S800000, .f32⟩
  | 116 => ⟨S800000, .f32⟩
  | 117 => ⟨S800000x1, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x64, .f32⟩
  | 127 => ⟨S800000x64, .f32⟩
  | _ => ⟨S50000x64, .f32⟩

abbrev hbmTy0_1 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_cst_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_cst_1 : Ref sig .tc := ⟨.hbm, 34, rfl⟩
abbrev main_call1_v8 : Ref sig .tc := ⟨.hbm, 35, rfl⟩
abbrev main_call1_cst_2 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_cst_3 : Ref sig .tc := ⟨.hbm, 41, rfl⟩
abbrev main_call1_v13 : Ref sig .tc := ⟨.hbm, 42, rfl⟩
abbrev main_call1_cst_4 : Ref sig .tc := ⟨.hbm, 43, rfl⟩
abbrev main_call1_call0_v0 : Ref sig .tc := ⟨.hbm, 44, rfl⟩
abbrev main_call1_call0_v1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_3 : Ref sig .tc := ⟨.hbm, 63, rfl⟩
abbrev main_v28 : Ref sig .tc := ⟨.hbm, 64, rfl⟩
abbrev main_v29 : Ref sig .tc := ⟨.hbm, 65, rfl⟩
abbrev main_c_4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_5 : Ref sig .tc := ⟨.hbm, 72, rfl⟩
abbrev main_v35 : Ref sig .tc := ⟨.hbm, 73, rfl⟩
abbrev main_v36 : Ref sig .tc := ⟨.hbm, 74, rfl⟩
abbrev main_c_6 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_cst_8 : Ref sig .tc := ⟨.hbm, 83, rfl⟩
abbrev main_v43 : Ref sig .tc := ⟨.hbm, 84, rfl⟩
abbrev main_v44 : Ref sig .tc := ⟨.hbm, 85, rfl⟩
abbrev main_cst_9 : Ref sig .tc := ⟨.hbm, 86, rfl⟩
abbrev main_v45 : Ref sig .tc := ⟨.hbm, 87, rfl⟩
abbrev main_cst_10 : Ref sig .tc := ⟨.hbm, 88, rfl⟩
abbrev main_v46 : Ref sig .tc := ⟨.hbm, 89, rfl⟩
abbrev main_cst_11 : Ref sig .tc := ⟨.hbm, 90, rfl⟩
abbrev main_v47 : Ref sig .tc := ⟨.hbm, 91, rfl⟩
abbrev main_cst_12 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_13 : Ref sig .tc := ⟨.hbm, 98, rfl⟩
abbrev main_v53 : Ref sig .tc := ⟨.hbm, 99, rfl⟩
abbrev main_cst_14 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_15 : Ref sig .tc := ⟨.hbm, 104, rfl⟩
abbrev main_v57 : Ref sig .tc := ⟨.hbm, 105, rfl⟩
abbrev main_v58 : Ref sig .tc := ⟨.hbm, 106, rfl⟩
abbrev main_c_16 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_17 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_18 : Ref sig .tc := ⟨.hbm, 118, rfl⟩
abbrev main_v68 : Ref sig .tc := ⟨.hbm, 119, rfl⟩
abbrev main_v69 : Ref sig .tc := ⟨.hbm, 120, rfl⟩
abbrev main_c_19 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_20 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x1_S_d0_1 : S800000x1.ReducesTo [0, 1] S_
  bcast_S_S800000x1 : S_.BroadcastsInDim S800000x1 (![] : Fin 0 → Fin S800000x1.rank)
  reducesTo_S800000x1_S800000_d1 : S800000x1.ReducesTo [1] S800000
  bcast_S_S50000 : S_.BroadcastsInDim S50000 (![] : Fin 0 → Fin S50000.rank)
  bcast_S800000x1_S800000x64_0_1 : S800000x1.BroadcastsInDim S800000x64 (![0, 1] : Fin 2 → Fin S800000x64.rank)
  dot_S50000x64_S64x64_S50000x64_1_0_0_1_n_n_wf : DotDims.WF S50000x64 S64x64 S50000x64 [1] [0] [0] [1] [] []
  gather_S50000x1_S800000x1_S800000x1_1_0_n_n_0_1_11_wf : GatherDims.WF S50000x1 S800000x1 S800000x1 [1] [0] [] [0] [] 1 ![1, 1]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KBody.lean ====
/-
  One grid point of the projection kernel, as a statement about its staging buffers.

  The body reads a block of 5000 rows of `x`, the whole 64 × 64 weight matrix and the bias row, and
  overwrites the output block with  rows · W + bias  (the product taken on operands rounded to the
  narrow format, accumulated from zero). It also reads the output block before overwriting it; that
  value is never used, so the block may hold anything on entry. What it leaves is `projBlock`:
  the one whole-block store, read back as a function of the three input blocks.
-/
import proofs.«416887_j60198261620972_3_alg».proof.Proof.Gen.Kernel.Launch
import proofs.«416887_j60198261620972_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole 5000 × 64 block, the whole weight matrix, the whole bias row: every access of the body is one of these. -/
abbrev rowsAll : Rect S5000x64 := Rect.unit (s := S5000x64) ![0, 0] S5000x64.size inb_S5000x64_S5000x64_0_0
abbrev weightAll : Rect S64x64 := Rect.unit (s := S64x64) ![0, 0] S64x64.size inb_S64x64_S64x64_0_0
abbrev biasAll : Rect S1x64 := Rect.unit (s := S1x64) ![0, 0] S1x64.size inb_S1x64_S1x64_0_0

/-- What a grid point leaves in the output block: the projection of the block's rows, stored whole. -/
def projBlock (xb : Vec F S5000x64 .f32) (w : Vec F S64x64 .f32) (bias : Vec F S1x64 .f32) : Vec F S5000x64 .f32 :=
  View.canon [⟨rowsAll, k0_pay1 (View.ld xb rowsAll) (View.ld w weightAll) (View.ld bias biasAll)⟩]

/-- The one store covers the block. -/
theorem projBlock_cover (p0 : Vec F S5000x64 .f32) (y : S5000x64.Idx) :
    ∃ pc ∈ ([⟨rowsAll, p0⟩] : List (View.Piece (Elt F) S5000x64 .f32)), y ∈ pc.1.set :=
  View.cover_of_tiled [⟨rowsAll, p0⟩] S5000x64.size (by rfl) y

set_option maxHeartbeats 1000000 in
/-- The body, run on whole staging buffers: the three inputs at known contents, the output at anything.
    It ends with the inputs as they were and the output at `projBlock` of them. -/
theorem body_triple (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (xb : Vec F S5000x64 .f32) (w : Vec F S64x64 .f32) (bias : Vec F S1x64 .f32) (K : PUnit → sProp 𝕄) :
    iprop(owns (c : Thread nD τ) arg1 fullShare xb ∗ owns (c : Thread nD τ) arg2 fullShare w ∗ owns (c : Thread nD τ) arg3 fullShare bias
        ∗ (∃ d, owns (c : Thread nD τ) arg4 fullShare d)
        ∗ (iprop(owns (c : Thread nD τ) arg1 fullShare xb ∗ owns (c : Thread nD τ) arg2 fullShare w ∗ owns (c : Thread nD τ) arg3 fullShare bias
            ∗ owns (c : Thread nD τ) arg4 fullShare (projBlock xb w bias)) -∗ K ⟨⟩))
      ⊢ wp frame (wpE (defs₀ (F := F)) Variants.none c none) E (cc0__v_feat_kernel i arg1 harg1 arg2 harg2 arg3 harg3 arg4 harg4) K := by
  simp only [cc0__v_feat_kernel_eq_skeleton]; unfold cc0__v_feat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projBlock_cover _)

end Cert.Kernel.Hand

end
-- ==== Proof.KHost.lean ====
/-
  The host side of the program around its one kernel launch.

  @main is: five early lines (the two rows of the edge list sliced out and flattened, the bias reshaped to
  a row), the launch, and 119 later lines that never write an argument or an array the launch stages.
  This file names the buffer contents the launch finds (`V0`, `V`), reduces @main to the launch continued
  by the later lines, and records what the later lines leave alone.
-/
import proofs.«416887_j60198261620972_3_alg».proof.Proof.Gen.Kernel.Launch
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## What the launch finds, and what follows it -/

/-- Core `c`'s buffer contents when the launch is reached: the launch memory after the five early lines. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

/-- The later lines, in the five stretches @main is cut into (the second and fourth are the bodies of the two
    functions it calls). -/
abbrev laterOps : List (List (HloOp τ sig (Elt F))) := [hostOps1, hostOps1_1, hostOps1_2, hostOps1_3, hostOps1_4]

/-- The six arguments, and the four of them that are no array of the pipeline (the edge list, the bias of the first
    layer — staged only through its reshaped copy —, the second layer's weights and bias). -/
abbrev argRefs : List (Ref sig .tc) := [main_arg0, main_arg1, main_arg2, main_arg3, main_arg4, main_arg5]
abbrev looseArgRefs : List (Ref sig .tc) := [main_arg1, main_arg3, main_arg4, main_arg5]

/-! ## No line allocates -/

theorem early_fresh : (hostOps0 : List (HloOp τ sig (Elt F))).Forall fun op => op.fresh = ∅ := by
  simp only [List.Forall]; repeat' constructor

theorem later_fresh : ∀ ops ∈ (laterOps : List (List (HloOp τ sig (Elt F)))), ∀ op ∈ ops, op.fresh = ∅ := by
  intro ops hops
  simp only [laterOps, List.mem_cons, List.mem_nil_iff, _root_.or_false] at hops
  refine List.forall_iff_forall_mem.mp ?_
  rcases hops with rfl | rfl | rfl | rfl | rfl <;> (simp only [List.Forall]; repeat' constructor)

/-! ## @main is the early lines, the launch, the later lines -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((laterOps (F := F)).map StableHlo.seq)) :=
  Pipeline.hmain_around cfgs 0 defs₀ 𝒱₀ m main [hostOps0] laterOps (by simp only [List.Forall]; exact hostOps0_sub)
    (by simp only [List.Forall]; exact early_fresh) main_chain

/-! ## The later lines: which buffers they touch, and which they leave alone -/

/-- They touch only the arrays of the pipeline and buffers the launch does not use. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [laterOps, List.mem_cons, List.mem_nil_iff, _root_.or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- Every later line writes a buffer of its own, never one of the four arrays the launch stages (x, the first
    layer's weights, its bias row, the projected features): checked line by line, array by array. -/
theorem later_keeps : ∀ ops ∈ (laterOps : List (List (HloOp τ sig (Elt F)))), ∀ op ∈ ops,
    ∀ w, Proc.devRef .tc (Pipeline.arrRef spec0 w) ∉ op.writes := by
  intro ops hops
  simp only [laterOps, List.mem_cons, List.mem_nil_iff, _root_.or_false] at hops
  refine List.forall_iff_forall_mem.mp ?_
  rcases hops with rfl | rfl | rfl | rfl | rfl <;>
  · simp only [hostOps1, hostOps1_1, hostOps1_2, hostOps1_3, hostOps1_4, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals (intro w; fin_cases w <;> exact StableHlo.devRef_ne_of_ne (by decide))

/-! ## The arguments at the launch and at the end -/

/-- None of the five early lines writes an argument: the launch finds each as launched. -/
theorem V_arg (c : Dev nD) (b : Ref sig .tc) (hb : b ∈ argRefs) : V m c b = m ((c : Thread nD τ).loc b) := by
  refine StableHlo.after_of_forall_not_mem (b := Proc.devRef .tc b) _ _ (List.forall_iff_forall_mem.mp ?_)
  simp only [argRefs, List.mem_cons, List.mem_nil_iff, _root_.or_false] at hb
  rcases hb with rfl | rfl | rfl | rfl | rfl | rfl <;>
  · simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-- Nor does any later line write an argument. -/
theorem later_spares (b : Ref sig .tc) (hb : b ∈ looseArgRefs) :
    ∀ op ∈ (laterOps : List (List (HloOp τ sig (Elt F)))).flatten, Proc.devRef .tc b ∉ op.writes := by
  refine List.forall_iff_forall_mem.mp ?_
  simp only [looseArgRefs, List.mem_cons, List.mem_nil_iff, _root_.or_false] at hb
  rcases hb with rfl | rfl | rfl | rfl <;>
  · simp only [laterOps, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

/-- So an argument that is no array of the pipeline ends as launched, whatever the launch leaves in its arrays. -/
theorem W_arg (dats : (p : Fin 1) → (c : Dev nD) → Dat τ (Elt F) Unit ℕ (UR sig nD τ) ℕ (cfgs p) c) (c : Dev nD)
    (b : Ref sig .tc) (hb : b ∈ looseArgRefs) :
    Pipeline.afterTail₀ cfgs dats 0 (V0 m) laterOps c b = m ((c : Thread nD τ).loc b) := by
  have hne : ∀ w, Pipeline.arrRef spec0 w ≠ b := by
    simp only [looseArgRefs, List.mem_cons, List.mem_nil_iff, _root_.or_false] at hb
    rcases hb with rfl | rfl | rfl | rfl <;> decide
  have harg : b ∈ argRefs := by
    simp only [looseArgRefs, List.mem_cons, List.mem_nil_iff, _root_.or_false] at hb
    rcases hb with rfl | rfl | rfl | rfl <;> decide
  unfold Pipeline.afterTail₀
  rw [StableHlo.after_of_forall_not_mem (b := Proc.devRef .tc b) _ _ (later_spares b hb),
    Pipeline.withArrays_of_ne _ c (V0 m c) _ b hne]
  exact V_arg m c b harg

end Cert.Kernel.Hand

end
-- ==== Proof.KRun.lean ====
/-
  The run of the program, and its frame.

  Proof data for the one pipeline: each array as the launch finds it; after the body at a grid point, the
  three input buffers still hold their blocks (rows 5000·t … 5000·t + 4999 of x; the whole weight matrix; the
  bias row) and the output buffer holds the projection of that block of rows. The body's statement
  (`body_triple`) meets the pipeline's obligation at every point, the later host lines keep clear of the
  staged arrays, and so every weakly fair execution of @main ends, with every argument as launched.
-/
import proofs.«416887_j60198261620972_3_alg».proof.Proof.KBody
import proofs.«416887_j60198261620972_3_alg».proof.Proof.KHost
import proofs.«416887_j60198261620972_3_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched
    again its block index has not moved. For the block of rows of x, -/
theorem rows_held {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- for the weight matrix (fetched once), -/
theorem weights_held {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for the bias row (fetched once). -/
theorem bias_held {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the launch finds them; after the body at point `t` each input buffer at its block and
    the output buffer at the projection of the block of rows; nothing of the kernel's own to keep; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = projBlock (iblk m c 0 t) (iblk m c 1 t) (iblk m c 2 t) := by dsimp only [dats]

theorem before_rows (c : Dev nD) (t : Fin cfg0.N) (d) : (dats m 0 c).before 0 t d = iblk m c 0 t :=
  rows_held m (dats m 0 c) (A_eq m c 0) (after_rows m c) t d
theorem before_weights (c : Dev nD) (t : Fin cfg0.N) (d) : (dats m 0 c).before 1 t d = iblk m c 1 t :=
  weights_held m (dats m 0 c) (A_eq m c 1) (after_weights m c) t d
theorem before_bias (c : Dev nD) (t : Fin cfg0.N) (d) : (dats m 0 c).before 2 t d = iblk m c 2 t :=
  bias_held m (dats m 0 c) (A_eq m c 2) (after_bias m c) t d

/-! ## The body obligation, at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the three input buffers hold their blocks, so the body's statement applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights, before_bias]
  rw [show (dats m 0 c).Φ t.succ = (dats m 0 c).Φ t.castSucc from rfl,
    show (dats m 0 c).owesAt () t.succ = (dats m 0 c).owesAt () t.castSucc from rfl,
    after_rows, after_weights, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each staged array holds what the pipeline's write-backs
    left in it, and every other buffer what the later lines compute from that. -/
theorem run_main : θ_run defs (onTc (τ := τ) (main (F := F))) (s₀ m ρ)
    (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- The same run, read at the result and at the six arguments: the result is what the later lines make of the
    launch's exit contents; x and the first layer's weights are staged inputs, which no write-back touches; the
    other four arguments no line writes. -/
theorem run_result : θ_run defs (onTc (τ := τ) (main (F := F))) ⟨m, fun _ => 0, ρ⟩ (fun r => ∀ c : Dev nD,
      r.2.mem ((c.tc : Thread nD τ).loc main_v77) = Pipeline.afterTail₀ cfgs (dats m) 0 (V0 m) laterOps c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v77 (Pipeline.mem_restRefs_of main_v77 (by decide) (by decide)),
     ((h c).1 0).trans (((dats m 0 c).arrAt_in 0 rfl _).trans ((A_eq m c 0).trans (V_arg m c main_arg0 (by decide)))),
     ((h c).2 main_arg1 (Pipeline.mem_restRefs_of main_arg1 (by decide) (by decide))).trans (W_arg m (dats m) c main_arg1 (by decide)),
     ((h c).1 1).trans (((dats m 0 c).arrAt_in 1 rfl _).trans ((A_eq m c 1).trans (V_arg m c main_arg2 (by decide)))),
     ((h c).2 main_arg3 (Pipeline.mem_restRefs_of main_arg3 (by decide) (by decide))).trans (W_arg m (dats m) c main_arg3 (by decide)),
     ((h c).2 main_arg4 (Pipeline.mem_restRefs_of main_arg4 (by decide) (by decide))).trans (W_arg m (dats m) c main_arg4 (by decide)),
     ((h c).2 main_arg5 (Pipeline.mem_restRefs_of main_arg5 (by decide) (by decide))).trans (W_arg m (dats m) c main_arg5 (by decide))⟩)
    (run_main m ρ)

/-- The frame: the program runs to the end and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.Kernel.Hand

end
-- ==== Proof.KIBody.lean ====
/-
  One grid point of the projection kernel, as a statement about its staging buffers.

  The body reads a block of 5000 rows of `x`, the whole 64 × 64 weight matrix and the bias row, and
  overwrites the output block with  rows · W + bias  (the product taken on operands rounded to the
  narrow format, accumulated from zero). It also reads the output block before overwriting it; that
  value is never used, so the block may hold anything on entry. What it leaves is `projBlock`:
  the one whole-block store, read back as a function of the three input blocks.
-/
import proofs.«416887_j60198261620972_3_alg».proof.Proof.Gen.KernelIdeal.Launch
import proofs.«416887_j60198261620972_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole 5000 × 64 block, the whole weight matrix, the whole bias row: every access of the body is one of these. -/
abbrev rowsAll : Rect S5000x64 := Rect.unit (s := S5000x64) ![0, 0] S5000x64.size inb_S5000x64_S5000x64_0_0
abbrev weightAll : Rect S64x64 := Rect.unit (s := S64x64) ![0, 0] S64x64.size inb_S64x64_S64x64_0_0
abbrev biasAll : Rect S1x64 := Rect.unit (s := S1x64) ![0, 0] S1x64.size inb_S1x64_S1x64_0_0

/-- What a grid point leaves in the output block: the projection of the block's rows, stored whole. -/
def projBlock (xb : Vec F S5000x64 .f32) (w : Vec F S64x64 .f32) (bias : Vec F S1x64 .f32) : Vec F S5000x64 .f32 :=
  View.canon [⟨rowsAll, k0_pay1 (View.ld xb rowsAll) (View.ld w weightAll) (View.ld bias biasAll)⟩]

/-- The one store covers the block. -/
theorem projBlock_cover (p0 : Vec F S5000x64 .f32) (y : S5000x64.Idx) :
    ∃ pc ∈ ([⟨rowsAll, p0⟩] : List (View.Piece (Elt F) S5000x64 .f32)), y ∈ pc.1.set :=
  View.cover_of_tiled [⟨rowsAll, p0⟩] S5000x64.size (by rfl) y

set_option maxHeartbeats 1000000 in
/-- The body, run on whole staging buffers: the three inputs at known contents, the output at anything.
    It ends with the inputs as they were and the output at `projBlock` of them. -/
theorem body_triple (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (xb : Vec F S5000x64 .f32) (w : Vec F S64x64 .f32) (bias : Vec F S1x64 .f32) (K : PUnit → sProp 𝕄) :
    iprop(owns (c : Thread nD τ) arg1 fullShare xb ∗ owns (c : Thread nD τ) arg2 fullShare w ∗ owns (c : Thread nD τ) arg3 fullShare bias
        ∗ (∃ d, owns (c : Thread nD τ) arg4 fullShare d)
        ∗ (iprop(owns (c : Thread nD τ) arg1 fullShare xb ∗ owns (c : Thread nD τ) arg2 fullShare w ∗ owns (c : Thread nD τ) arg3 fullShare bias
            ∗ owns (c : Thread nD τ) arg4 fullShare (projBlock xb w bias)) -∗ K ⟨⟩))
      ⊢ wp frame (wpE (defs₀ (F := F)) Variants.none c none) E (cc0__v_feat_kernel i arg1 harg1 arg2 harg2 arg3 harg3 arg4 harg4) K := by
  simp only [cc0__v_feat_kernel_eq_skeleton]; unfold cc0__v_feat_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projBlock_cover _)

end Cert.KernelIdeal.Hand

end
-- ==== Proof.KIHost.lean ====
/-
  The host side of the program around its one kernel launch.

  @main is: five early lines (the two rows of the edge list sliced out and flattened, the bias reshaped to
  a row), the launch, and 119 later lines that never write an argument or an array the launch stages.
  This file names the buffer contents the launch finds (`V0`, `V`), reduces @main to the launch continued
  by the later lines, and records what the later lines leave alone.
-/
import proofs.«416887_j60198261620972_3_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## What the launch finds, and what follows it -/

/-- Core `c`'s buffer contents when the launch is reached: the launch memory after the five early lines. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

/-- The later lines, in the five stretches @main is cut into (the second and fourth are the bodies of the two
    functions it calls). -/
abbrev laterOps : List (List (HloOp τ sig (Elt F))) := [hostOps1, hostOps1_1, hostOps1_2, hostOps1_3, hostOps1_4]

/-- The six arguments, and the four of them that are no array of the pipeline (the edge list, the bias of the first
    layer — staged only through its reshaped copy —, the second layer's weights and bias). -/
abbrev argRefs : List (Ref sig .tc) := [main_arg0, main_arg1, main_arg2, main_arg3, main_arg4, main_arg5]
abbrev looseArgRefs : List (Ref sig .tc) := [main_arg1, main_arg3, main_arg4, main_arg5]

/-! ## No line allocates -/

theorem early_fresh : (hostOps0 : List (HloOp τ sig (Elt F))).Forall fun op => op.fresh = ∅ := by
  simp only [List.Forall]; repeat' constructor

theorem later_fresh : ∀ ops ∈ (laterOps : List (List (HloOp τ sig (Elt F)))), ∀ op ∈ ops, op.fresh = ∅ := by
  intro ops hops
  simp only [laterOps, List.mem_cons, List.mem_nil_iff, _root_.or_false] at hops
  refine List.forall_iff_forall_mem.mp ?_
  rcases hops with rfl | rfl | rfl | rfl | rfl <;> (simp only [List.Forall]; repeat' constructor)

/-! ## @main is the early lines, the launch, the later lines -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((laterOps (F := F)).map StableHlo.seq)) :=
  Pipeline.hmain_around cfgs 0 defs₀ 𝒱₀ m main [hostOps0] laterOps (by simp only [List.Forall]; exact hostOps0_sub)
    (by simp only [List.Forall]; exact early_fresh) main_chain

/-! ## The later lines: which buffers they touch, and which they leave alone -/

/-- They touch only the arrays of the pipeline and buffers the launch does not use. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [laterOps, List.mem_cons, List.mem_nil_iff, _root_.or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- Every later line writes a buffer of its own, never one of the four arrays the launch stages (x, the first
    layer's weights, its bias row, the projected features): checked line by line, array by array. -/
theorem later_keeps : ∀ ops ∈ (laterOps : List (List (HloOp τ sig (Elt F)))), ∀ op ∈ ops,
    ∀ w, Proc.devRef .tc (Pipeline.arrRef spec0 w) ∉ op.writes := by
  intro ops hops
  simp only [laterOps, List.mem_cons, List.mem_nil_iff, _root_.or_false] at hops
  refine List.forall_iff_forall_mem.mp ?_
  rcases hops with rfl | rfl | rfl | rfl | rfl <;>
  · simp only [hostOps1, hostOps1_1, hostOps1_2, hostOps1_3, hostOps1_4, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals (intro w; fin_cases w <;> exact StableHlo.devRef_ne_of_ne (by decide))

/-! ## The arguments at the launch and at the end -/

/-- None of the five early lines writes an argument: the launch finds each as launched. -/
theorem V_arg (c : Dev nD) (b : Ref sig .tc) (hb : b ∈ argRefs) : V m c b = m ((c : Thread nD τ).loc b) := by
  refine StableHlo.after_of_forall_not_mem (b := Proc.devRef .tc b) _ _ (List.forall_iff_forall_mem.mp ?_)
  simp only [argRefs, List.mem_cons, List.mem_nil_iff, _root_.or_false] at hb
  rcases hb with rfl | rfl | rfl | rfl | rfl | rfl <;>
  · simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-- Nor does any later line write an argument. -/
theorem later_spares (b : Ref sig .tc) (hb : b ∈ looseArgRefs) :
    ∀ op ∈ (laterOps : List (List (HloOp τ sig (Elt F)))).flatten, Proc.devRef .tc b ∉ op.writes := by
  refine List.forall_iff_forall_mem.mp ?_
  simp only [looseArgRefs, List.mem_cons, List.mem_nil_iff, _root_.or_false] at hb
  rcases hb with rfl | rfl | rfl | rfl <;>
  · simp only [laterOps, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)

/-- So an argument that is no array of the pipeline ends as launched, whatever the launch leaves in its arrays. -/
theorem W_arg (dats : (p : Fin 1) → (c : Dev nD) → Dat τ (Elt F) Unit ℕ (UR sig nD τ) ℕ (cfgs p) c) (c : Dev nD)
    (b : Ref sig .tc) (hb : b ∈ looseArgRefs) :
    Pipeline.afterTail₀ cfgs dats 0 (V0 m) laterOps c b = m ((c : Thread nD τ).loc b) := by
  have hne : ∀ w, Pipeline.arrRef spec0 w ≠ b := by
    simp only [looseArgRefs, List.mem_cons, List.mem_nil_iff, _root_.or_false] at hb
    rcases hb with rfl | rfl | rfl | rfl <;> decide
  have harg : b ∈ argRefs := by
    simp only [looseArgRefs, List.mem_cons, List.mem_nil_iff, _root_.or_false] at hb
    rcases hb with rfl | rfl | rfl | rfl <;> decide
  unfold Pipeline.afterTail₀
  rw [StableHlo.after_of_forall_not_mem (b := Proc.devRef .tc b) _ _ (later_spares b hb),
    Pipeline.withArrays_of_ne _ c (V0 m c) _ b hne]
  exact V_arg m c b harg

end Cert.KernelIdeal.Hand

end
-- ==== Proof.KIRun.lean ====
/-
  The run of the program, and its frame.

  Proof data for the one pipeline: each array as the launch finds it; after the body at a grid point, the
  three input buffers still hold their blocks (rows 5000·t … 5000·t + 4999 of x; the whole weight matrix; the
  bias row) and the output buffer holds the projection of that block of rows. The body's statement
  (`body_triple`) meets the pipeline's obligation at every point, the later host lines keep clear of the
  staged arrays, and so every weakly fair execution of @main ends, with every argument as launched.
-/
import proofs.«416887_j60198261620972_3_alg».proof.Proof.KIBody
import proofs.«416887_j60198261620972_3_alg».proof.Proof.KIHost
import proofs.«416887_j60198261620972_3_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched
    again its block index has not moved. For the block of rows of x, -/
theorem rows_held {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- for the weight matrix (fetched once), -/
theorem weights_held {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and for the bias row (fetched once). -/
theorem bias_held {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the launch finds them; after the body at point `t` each input buffer at its block and
    the output buffer at the projection of the block of rows; nothing of the kernel's own to keep; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = projBlock (iblk m c 0 t) (iblk m c 1 t) (iblk m c 2 t) := by dsimp only [dats]

theorem before_rows (c : Dev nD) (t : Fin cfg0.N) (d) : (dats m 0 c).before 0 t d = iblk m c 0 t :=
  rows_held m (dats m 0 c) (A_eq m c 0) (after_rows m c) t d
theorem before_weights (c : Dev nD) (t : Fin cfg0.N) (d) : (dats m 0 c).before 1 t d = iblk m c 1 t :=
  weights_held m (dats m 0 c) (A_eq m c 1) (after_weights m c) t d
theorem before_bias (c : Dev nD) (t : Fin cfg0.N) (d) : (dats m 0 c).before 2 t d = iblk m c 2 t :=
  bias_held m (dats m 0 c) (A_eq m c 2) (after_bias m c) t d

/-! ## The body obligation, at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the three input buffers hold their blocks, so the body's statement applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weights, before_bias]
  rw [show (dats m 0 c).Φ t.succ = (dats m 0 c).Φ t.castSucc from rfl,
    show (dats m 0 c).owesAt () t.succ = (dats m 0 c).owesAt () t.castSucc from rfl,
    after_rows, after_weights, after_bias, after_out]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each staged array holds what the pipeline's write-backs
    left in it, and every other buffer what the later lines compute from that. -/
theorem run_main : θ_run defs (onTc (τ := τ) (main (F := F))) (s₀ m ρ)
    (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- The same run, read at the result and at the six arguments: the result is what the later lines make of the
    launch's exit contents; x and the first layer's weights are staged inputs, which no write-back touches; the
    other four arguments no line writes. -/
theorem run_result : θ_run defs (onTc (τ := τ) (main (F := F))) ⟨m, fun _ => 0, ρ⟩ (fun r => ∀ c : Dev nD,
      r.2.mem ((c.tc : Thread nD τ).loc main_v77) = Pipeline.afterTail₀ cfgs (dats m) 0 (V0 m) laterOps c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v77 (Pipeline.mem_restRefs_of main_v77 (by decide) (by decide)),
     ((h c).1 0).trans (((dats m 0 c).arrAt_in 0 rfl _).trans ((A_eq m c 0).trans (V_arg m c main_arg0 (by decide)))),
     ((h c).2 main_arg1 (Pipeline.mem_restRefs_of main_arg1 (by decide) (by decide))).trans (W_arg m (dats m) c main_arg1 (by decide)),
     ((h c).1 1).trans (((dats m 0 c).arrAt_in 1 rfl _).trans ((A_eq m c 1).trans (V_arg m c main_arg2 (by decide)))),
     ((h c).2 main_arg3 (Pipeline.mem_restRefs_of main_arg3 (by decide) (by decide))).trans (W_arg m (dats m) c main_arg3 (by decide)),
     ((h c).2 main_arg4 (Pipeline.mem_restRefs_of main_arg4 (by decide) (by decide))).trans (W_arg m (dats m) c main_arg4 (by decide)),
     ((h c).2 main_arg5 (Pipeline.mem_restRefs_of main_arg5 (by decide) (by decide))).trans (W_arg m (dats m) c main_arg5 (by decide))⟩)
    (run_main m ρ)

/-- The frame: the program runs to the end and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.KernelIdeal.Hand

end
-- ==== Proof.RefOps.lean ====
import proofs.«416887_j60198261620972_3_alg».proof.Proof.Gen.ReferenceIdeal
import Idealize.ShloMosaic.Lib.StableHlo.Run

/-!
# The reference function's operations, as one list

The reference is a straight line of tensor operations: its own statements, with the three
module-local functions it calls (the rectifier, the row variance, and the selection the variance
ends with) written out at their calls over the buffers each call names. The list is cut where the
certificate reads intermediate values:

* `opsV` — the value rows `V = x·W1 + b1`;
* `opsQ`, `opsRelu` — the query rows `Q = relu(x·W2 + b2)`;
* `opsMean`, `opsVar` — each row's mean and variance of `Q`;
* `opsRest0` — the normalised rows, their squared row sums `h`, the gathers of `h` through the two
  rows of `edge_index`, and the range of the gathered values;
* `opsRest1` — the cosine attention, its normalisation by the segment sums, and the segment sum of
  the weighted `V` rows.

`ops` is their concatenation, and `ops_sub` says every operation touches TensorCore references only.
-/

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The value rows: `V = x·W1 + b1` (the product, the bias as a row, the row repeated over the nodes, the sum). -/
abbrev opsV : List (HloOp τ sig (Elt F)) :=
  [ StableHlo.binary main_arg0 main_arg2 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg3 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)) ]

theorem opsV_sub : (opsV : List (HloOp τ sig (Elt F))).Forall fun op => op.bufs ⊆ tcRefs τ sig :=
  ⟨binary_bufs_sub .., unary_bufs_sub .., unary_bufs_sub .., binary_bufs_sub ..⟩

/-- The query rows before the rectifier: `x·W2 + b2`, built as `V` is. -/
abbrev opsQ : List (HloOp τ sig (Elt F)) :=
  [ StableHlo.binary main_arg0 main_arg4 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg5 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)) ]

theorem opsQ_sub : (opsQ : List (HloOp τ sig (Elt F))).Forall fun op => op.bufs ⊆ tcRefs τ sig :=
  ⟨binary_bufs_sub .., unary_bufs_sub .., unary_bufs_sub .., binary_bufs_sub ..⟩

/-- The rectifier, inlined: a zero, the zero spread over the rows, the elementwise maximum — `Q = relu(x·W2 + b2)`. -/
abbrev opsRelu : List (HloOp τ sig (Elt F)) :=
  [ StableHlo.TRef.nullary main_call0.cst (constant S_ .f32 0x00000000#32),
    StableHlo.TRef.unary main_call0.cst main_call0.v0 (broadcastInDim S50000x64 ![] bcast_S_S50000x64),
    StableHlo.TRef.binary (.of main_v7) main_call0.v0 main_call0.v1 maximumf ]

theorem opsRelu_sub : (opsRelu : List (HloOp τ sig (Elt F))).Forall fun op => op.bufs ⊆ tcRefs τ sig :=
  ⟨nullary_bufs_sub .., unary_bufs_sub .., binary_bufs_sub ..⟩

/-- Each row's mean of `Q` over its 64 columns (the row sums divided by 64), and the integer zero handed to the variance as its `ddof`. -/
abbrev opsMean : List (HloOp τ sig (Elt F)) :=
  [ StableHlo.nullary main_cst (constant S_ .f32 0x00000000#32),
    StableHlo.binary main_v8 main_cst main_v9 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v9 main_v10 (broadcastInDim S50000x1 ![0] bcast_S50000_S50000x1_0 : (⟨S50000, .f32⟩ : BufTy).Contents (Elt F) → (⟨S50000x1, .f32⟩ : BufTy).Contents (Elt F)),
    StableHlo.nullary main_cst_0 (constant S_ .f32 0x42800000#32),
    StableHlo.unary main_cst_0 main_v11 (broadcastInDim S50000x1 ![] bcast_S_S50000x1 : (⟨S_, .f32⟩ : BufTy).Contents (Elt F) → (⟨S50000x1, .f32⟩ : BufTy).Contents (Elt F)),
    StableHlo.binary main_v10 main_v11 main_v12 (Host.divf : (⟨S50000x1, .f32⟩ : BufTy).Contents (Elt F) → (⟨S50000x1, .f32⟩ : BufTy).Contents (Elt F) → (⟨S50000x1, .f32⟩ : BufTy).Contents (Elt F)),
    StableHlo.nullary main_c (constantI S_ 32 0#32) ]

theorem opsMean_sub : (opsMean : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩

/-- Each row's variance of `Q`, inlined: the row mean again, the squared deviations summed over the columns and divided by `64 - ddof`, and the final selection (inlined in turn: the NaN scalar converted, spread, selected against `64 - ddof > 0`). -/
abbrev opsVar : List (HloOp τ sig (Elt F)) :=
  [ StableHlo.TRef.nullary main_call1.cst (constant S_ .f32 0x00000000#32),
    StableHlo.TRef.binary (.of main_v8) main_call1.cst main_call1.v0 (fun x v => Host.reduceAdd x v reducesTo_S50000x64_S50000_d1 h_S_),
    StableHlo.TRef.unary main_call1.v0 main_call1.v1 (broadcastInDim S50000x1 ![0] bcast_S50000_S50000x1_0),
    StableHlo.TRef.nullary main_call1.cst_0 (constant S_ .f32 0x42800000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x64 ![0, 1] bcast_S50000x1_S50000x64_0_1),
    StableHlo.TRef.binary (.of main_v8) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x42800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b) ]

theorem opsVar_sub : (opsVar : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

set_option maxHeartbeats 40000000 in
/-- The rows normalised (`(Q - mean) · rsqrt(var + 1e-5)`), their row sums squared `h`, the two rows of `edge_index` with negative entries wrapped by 50000, `h` gathered through each, and the scalar `2 · (max h[src] - min h[src])`. -/
abbrev opsRest0 : List (HloOp τ sig (Elt F)) :=
  [ StableHlo.unary main_v12 main_v14 (broadcastInDim S50000x64 ![0, 1] bcast_S50000x1_S50000x64_0_1 : (⟨S50000x1, .f32⟩ : BufTy).Contents (Elt F) → (⟨S50000x64, .f32⟩ : BufTy).Contents (Elt F)),
    StableHlo.binary main_v8 main_v14 main_v15 (subf : (⟨S50000x64, .f32⟩ : BufTy).Contents (Elt F) → (⟨S50000x64, .f32⟩ : BufTy).Contents (Elt F) → (⟨S50000x64, .f32⟩ : BufTy).Contents (Elt F)),
    StableHlo.nullary main_cst_1 (constant S_ .f32 0x3727C5AC#32),
    StableHlo.unary main_cst_1 main_v16 (broadcastInDim S50000x1 ![] bcast_S_S50000x1 : (⟨S_, .f32⟩ : BufTy).Contents (Elt F) → (⟨S50000x1, .f32⟩ : BufTy).Contents (Elt F)),
    StableHlo.binary main_v13 main_v16 main_v17 (addf : (⟨S50000x1, .f32⟩ : BufTy).Contents (Elt F) → (⟨S50000x1, .f32⟩ : BufTy).Contents (Elt F) → (⟨S50000x1, .f32⟩ : BufTy).Contents (Elt F)),
    StableHlo.unary main_v17 main_v18 (Host.rsqrt : (⟨S50000x1, .f32⟩ : BufTy).Contents (Elt F) → (⟨S50000x1, .f32⟩ : BufTy).Contents (Elt F)),
    StableHlo.unary main_v18 main_v19 (broadcastInDim S50000x64 ![0, 1] bcast_S50000x1_S50000x64_0_1 : (⟨S50000x1, .f32⟩ : BufTy).Contents (Elt F) → (⟨S50000x64, .f32⟩ : BufTy).Contents (Elt F)),
    StableHlo.binary main_v15 main_v19 main_v20 (mulf : (⟨S50000x64, .f32⟩ : BufTy).Contents (Elt F) → (⟨S50000x64, .f32⟩ : BufTy).Contents (Elt F) → (⟨S50000x64, .f32⟩ : BufTy).Contents (Elt F)),
    StableHlo.nullary main_cst_2 (constant S_ .f32 0x00000000#32),
    StableHlo.binary main_v20 main_cst_2 main_v21 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v21 main_v22 (broadcastInDim S50000x1 ![0] bcast_S50000_S50000x1_0 : (⟨S50000, .f32⟩ : BufTy).Contents (Elt F) → (⟨S50000x1, .f32⟩ : BufTy).Contents (Elt F)),
    StableHlo.binary main_v22 main_v22 main_v23 (mulf : (⟨S50000x1, .f32⟩ : BufTy).Contents (Elt F) → (⟨S50000x1, .f32⟩ : BufTy).Contents (Elt F) → (⟨S50000x1, .f32⟩ : BufTy).Contents (Elt F)),
    StableHlo.unary main_arg1 main_v24 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v24 main_v25 rfl shapeCasts_S1x800000_S800000,
    StableHlo.unary main_arg1 main_v26 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v26 main_v27 rfl shapeCasts_S1x800000_S800000,
    StableHlo.nullary main_c_3 (constantI S_ 32 0#32),
    StableHlo.unary main_c_3 main_v28 (broadcastInDim S800000 ![] bcast_S_S800000 : (⟨S_, .i32⟩ : BufTy).Contents (Elt F) → (⟨S800000, .i32⟩ : BufTy).Contents (Elt F)),
    StableHlo.binary main_v25 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v30 (broadcastInDim S800000 ![] bcast_S_S800000 : (⟨S_, .i32⟩ : BufTy).Contents (Elt F) → (⟨S800000, .i32⟩ : BufTy).Contents (Elt F)),
    StableHlo.binary main_v25 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_v25 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v23 main_v33 main_v34 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_c_5 (constantI S_ 32 0#32),
    StableHlo.unary main_c_5 main_v35 (broadcastInDim S800000 ![] bcast_S_S800000 : (⟨S_, .i32⟩ : BufTy).Contents (Elt F) → (⟨S800000, .i32⟩ : BufTy).Contents (Elt F)),
    StableHlo.binary main_v27 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v37 (broadcastInDim S800000 ![] bcast_S_S800000 : (⟨S_, .i32⟩ : BufTy).Contents (Elt F) → (⟨S800000, .i32⟩ : BufTy).Contents (Elt F)),
    StableHlo.binary main_v27 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v27 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v23 main_v40 main_v41 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.nullary main_cst_7 (constant S_ .f32 0xFF800000#32),
    StableHlo.binary main_v34 main_cst_7 main_v42 ((fun x v => Host.reduce FloatOps.maximumf x v reducesTo_S800000x1_S_d0_1 h_S_) : (⟨S800000x1, .f32⟩ : BufTy).Contents (Elt F) → (⟨S_, .f32⟩ : BufTy).Contents (Elt F) → (⟨S_, .f32⟩ : BufTy).Contents (Elt F)),
    StableHlo.nullary main_cst_8 (constant S_ .f32 0x7F800000#32),
    StableHlo.binary main_v34 main_cst_8 main_v43 ((fun x v => Host.reduce FloatOps.minimumf x v reducesTo_S800000x1_S_d0_1 h_S_) : (⟨S800000x1, .f32⟩ : BufTy).Contents (Elt F) → (⟨S_, .f32⟩ : BufTy).Contents (Elt F) → (⟨S_, .f32⟩ : BufTy).Contents (Elt F)),
    StableHlo.binary main_v42 main_v43 main_v44 (subf : (⟨S_, .f32⟩ : BufTy).Contents (Elt F) → (⟨S_, .f32⟩ : BufTy).Contents (Elt F) → (⟨S_, .f32⟩ : BufTy).Contents (Elt F)),
    StableHlo.nullary main_cst_9 (constant S_ .f32 0x3F800000#32),
    StableHlo.binary main_v44 main_cst_9 main_v45 (mulf : (⟨S_, .f32⟩ : BufTy).Contents (Elt F) → (⟨S_, .f32⟩ : BufTy).Contents (Elt F) → (⟨S_, .f32⟩ : BufTy).Contents (Elt F)),
    StableHlo.nullary main_cst_10 (constant S_ .f32 0x40000000#32),
    StableHlo.binary main_cst_10 main_v45 main_v46 (mulf : (⟨S_, .f32⟩ : BufTy).Contents (Elt F) → (⟨S_, .f32⟩ : BufTy).Contents (Elt F) → (⟨S_, .f32⟩ : BufTy).Contents (Elt F)) ]

theorem opsRest0_sub : (opsRest0 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub ..⟩

set_option maxHeartbeats 40000000 in
/-- The cosine attention `cos(π / (2·range + 1e-10) · (h[src] - h[dst]))`, its segment sum over the source nodes, the attention divided by its segment's sum (plus 1e-10), the `V` rows gathered through the destination nodes and weighted, and their segment sum over the source nodes: the output. -/
abbrev opsRest1 : List (HloOp τ sig (Elt F)) :=
  [ StableHlo.nullary main_cst_11 (constant S_ .f32 0x2EDBE6FF#32),
    StableHlo.binary main_v46 main_cst_11 main_v47 (addf : (⟨S_, .f32⟩ : BufTy).Contents (Elt F) → (⟨S_, .f32⟩ : BufTy).Contents (Elt F) → (⟨S_, .f32⟩ : BufTy).Contents (Elt F)),
    StableHlo.nullary main_cst_12 (constant S_ .f32 0x40490FDB#32),
    StableHlo.binary main_cst_12 main_v47 main_v48 (Host.divf : (⟨S_, .f32⟩ : BufTy).Contents (Elt F) → (⟨S_, .f32⟩ : BufTy).Contents (Elt F) → (⟨S_, .f32⟩ : BufTy).Contents (Elt F)),
    StableHlo.binary main_v34 main_v41 main_v49 (subf : (⟨S800000x1, .f32⟩ : BufTy).Contents (Elt F) → (⟨S800000x1, .f32⟩ : BufTy).Contents (Elt F) → (⟨S800000x1, .f32⟩ : BufTy).Contents (Elt F)),
    StableHlo.unary main_v48 main_v50 (broadcastInDim S800000x1 ![] bcast_S_S800000x1 : (⟨S_, .f32⟩ : BufTy).Contents (Elt F) → (⟨S800000x1, .f32⟩ : BufTy).Contents (Elt F)),
    StableHlo.binary main_v50 main_v49 main_v51 (mulf : (⟨S800000x1, .f32⟩ : BufTy).Contents (Elt F) → (⟨S800000x1, .f32⟩ : BufTy).Contents (Elt F) → (⟨S800000x1, .f32⟩ : BufTy).Contents (Elt F)),
    StableHlo.unary main_v51 main_v52 (Host.cos : (⟨S800000x1, .f32⟩ : BufTy).Contents (Elt F) → (⟨S800000x1, .f32⟩ : BufTy).Contents (Elt F)),
    StableHlo.nullary main_cst_13 (constant S_ .f32 0x00000000#32),
    StableHlo.binary main_v52 main_cst_13 main_v53 ((fun x v => Host.reduceAdd x v reducesTo_S800000x1_S800000_d1 h_S_) : (⟨S800000x1, .f32⟩ : BufTy).Contents (Elt F) → (⟨S_, .f32⟩ : BufTy).Contents (Elt F) → (⟨S800000, .f32⟩ : BufTy).Contents (Elt F)),
    StableHlo.nullary main_cst_14 (constant S_ .f32 0x00000000#32),
    StableHlo.unary main_cst_14 main_v54 (broadcastInDim S50000 ![] bcast_S_S50000 : (⟨S_, .f32⟩ : BufTy).Contents (Elt F) → (⟨S50000, .f32⟩ : BufTy).Contents (Elt F)),
    StableHlo.unary main_v25 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c_15 (constantI S_ 32 0#32),
    StableHlo.unary main_c_15 main_v57 (broadcastInDim S800000 ![] bcast_S_S800000 : (⟨S_, .i32⟩ : BufTy).Contents (Elt F) → (⟨S800000, .i32⟩ : BufTy).Contents (Elt F)),
    StableHlo.binary main_v25 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v59 (broadcastInDim S800000 ![] bcast_S_S800000 : (⟨S_, .i32⟩ : BufTy).Contents (Elt F) → (⟨S800000, .i32⟩ : BufTy).Contents (Elt F)),
    StableHlo.binary main_v25 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v25 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v56 main_v62 main_v63 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v53 main_v63 main_v64 (Host.divf : (⟨S800000, .f32⟩ : BufTy).Contents (Elt F) → (⟨S800000, .f32⟩ : BufTy).Contents (Elt F) → (⟨S800000, .f32⟩ : BufTy).Contents (Elt F)),
    StableHlo.nullary main_cst_17 (constant S_ .f32 0x2EDBE6FF#32),
    StableHlo.unary main_cst_17 main_v65 (broadcastInDim S800000 ![] bcast_S_S800000 : (⟨S_, .f32⟩ : BufTy).Contents (Elt F) → (⟨S800000, .f32⟩ : BufTy).Contents (Elt F)),
    StableHlo.binary main_v64 main_v65 main_v66 (addf : (⟨S800000, .f32⟩ : BufTy).Contents (Elt F) → (⟨S800000, .f32⟩ : BufTy).Contents (Elt F) → (⟨S800000, .f32⟩ : BufTy).Contents (Elt F)),
    StableHlo.unary main_v66 main_v67 (broadcastInDim S800000x1 ![0] bcast_S800000_S800000x1_0 : (⟨S800000, .f32⟩ : BufTy).Contents (Elt F) → (⟨S800000x1, .f32⟩ : BufTy).Contents (Elt F)),
    StableHlo.nullary main_c_18 (constantI S_ 32 0#32),
    StableHlo.unary main_c_18 main_v68 (broadcastInDim S800000 ![] bcast_S_S800000 : (⟨S_, .i32⟩ : BufTy).Contents (Elt F) → (⟨S800000, .i32⟩ : BufTy).Contents (Elt F)),
    StableHlo.binary main_v27 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v70 (broadcastInDim S800000 ![] bcast_S_S800000 : (⟨S_, .i32⟩ : BufTy).Contents (Elt F) → (⟨S800000, .i32⟩ : BufTy).Contents (Elt F)),
    StableHlo.binary main_v27 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v27 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v3 main_v73 main_v74 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v67 main_v75 (broadcastInDim S800000x64 ![0, 1] bcast_S800000x1_S800000x64_0_1 : (⟨S800000x1, .f32⟩ : BufTy).Contents (Elt F) → (⟨S800000x64, .f32⟩ : BufTy).Contents (Elt F)),
    StableHlo.binary main_v75 main_v74 main_v76 (mulf : (⟨S800000x64, .f32⟩ : BufTy).Contents (Elt F) → (⟨S800000x64, .f32⟩ : BufTy).Contents (Elt F) → (⟨S800000x64, .f32⟩ : BufTy).Contents (Elt F)),
    StableHlo.nullary main_cst_20 (constant S_ .f32 0x00000000#32),
    StableHlo.unary main_cst_20 main_v77 (broadcastInDim S50000x64 ![] bcast_S_S50000x64 : (⟨S_, .f32⟩ : BufTy).Contents (Elt F) → (⟨S50000x64, .f32⟩ : BufTy).Contents (Elt F)),
    StableHlo.unary main_v25 main_v78 (broadcastInDim S800000x1 ![0] bcast_S800000_S800000x1_0 : (⟨S800000, .i32⟩ : BufTy).Contents (Elt F) → (⟨S800000x1, .i32⟩ : BufTy).Contents (Elt F)),
    StableHlo.ternary main_v77 main_v78 main_v76 main_v79 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem opsRest1_sub : (opsRest1 : List (HloOp τ sig (Elt F))).Forall fun op => op.bufs ⊆ tcRefs τ sig :=
  ⟨nullary_bufs_sub .., binary_bufs_sub .., nullary_bufs_sub .., binary_bufs_sub .., binary_bufs_sub .., unary_bufs_sub .., binary_bufs_sub .., unary_bufs_sub .., nullary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Everything after `V`. -/
abbrev opsTail : List (HloOp τ sig (Elt F)) := opsQ ++ opsRelu ++ opsMean ++ opsVar ++ opsRest0 ++ opsRest1

/-- The reference's operations, in order. -/
abbrev ops : List (HloOp τ sig (Elt F)) := opsV ++ opsTail

/-- Every operation touches TensorCore references only. -/
theorem ops_sub : (ops : List (HloOp τ sig (Elt F))).Forall fun op => op.bufs ⊆ tcRefs τ sig :=
  List.forall_append.2 ⟨opsV_sub, List.forall_append.2 ⟨List.forall_append.2 ⟨List.forall_append.2 ⟨List.forall_append.2
    ⟨List.forall_append.2 ⟨opsQ_sub, opsRelu_sub⟩, opsMean_sub⟩, opsVar_sub⟩, opsRest0_sub⟩, opsRest1_sub⟩⟩

end Cert.ReferenceIdeal.Hand

end
-- ==== Proof.RefRun.lean ====
import proofs.«416887_j60198261620972_3_alg».proof.Proof.RefOps
import Idealize.ShloMosaic.Lib.Pipeline.Frame

/-!
# The reference function's run

The reference is a straight line of tensor operations (`ops`): it computes the value rows `V = x·W1 + b1` and the
query rows `Q = relu(x·W2 + b2)`, normalises each row of `Q` by its mean and variance and squares the normalised
rows' sums (`h`), gathers `h` through the two rows of `edge_index`, forms the cosine attention of the gathered
differences, normalises it by its segment sums over the source nodes, and segment-sums the `V` rows gathered through
the destination nodes and weighted by it.

Here: the program IS that line (`main_eq`); every fair execution of it terminates with each buffer at the fold of the
operations' results over the launch contents (`run`); the fold leaves the six arguments as they were (`kept_argK`,
`frame`); and after the first four operations the buffer of `V` holds `x·W1 + b1` (`valV`).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is that line -/

/-- The reference is the straight line `ops`: its two windows in order, the three module-local functions unfolded at
    their calls. Both sides are the same chain of steps once sequencing is re-associated, which is a computation. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-! ## No operation leaves a result undetermined -/

theorem opsV_fresh : (opsV : List (HloOp τ sig (Elt F))).Forall fun op => op.fresh = ∅ := by
  simp only [List.Forall]; repeat' constructor
theorem opsQ_fresh : (opsQ : List (HloOp τ sig (Elt F))).Forall fun op => op.fresh = ∅ := by
  simp only [List.Forall]; repeat' constructor
theorem opsRelu_fresh : (opsRelu : List (HloOp τ sig (Elt F))).Forall fun op => op.fresh = ∅ := by
  simp only [List.Forall]; repeat' constructor
theorem opsMean_fresh : (opsMean : List (HloOp τ sig (Elt F))).Forall fun op => op.fresh = ∅ := by
  simp only [List.Forall]; repeat' constructor
theorem opsVar_fresh : (opsVar : List (HloOp τ sig (Elt F))).Forall fun op => op.fresh = ∅ := by
  simp only [List.Forall]; repeat' constructor
theorem opsRest0_fresh : (opsRest0 : List (HloOp τ sig (Elt F))).Forall fun op => op.fresh = ∅ := by
  simp only [List.Forall]; repeat' constructor
theorem opsRest1_fresh : (opsRest1 : List (HloOp τ sig (Elt F))).Forall fun op => op.fresh = ∅ := by
  simp only [List.Forall]; repeat' constructor

theorem ops_fresh : (ops : List (HloOp τ sig (Elt F))).Forall fun op => op.fresh = ∅ :=
  List.forall_append.2 ⟨opsV_fresh, List.forall_append.2 ⟨List.forall_append.2 ⟨List.forall_append.2 ⟨List.forall_append.2
    ⟨List.forall_append.2 ⟨opsQ_fresh, opsRelu_fresh⟩, opsMean_fresh⟩, opsVar_fresh⟩, opsRest0_fresh⟩, opsRest1_fresh⟩⟩

/-! ## The run -/

/-- On every device, for any float values, from any memory with zero counters: every weakly fair execution of the
    reference terminates, and every TensorCore buffer ends at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-! ## What the line leaves alone -/

/-- No operation writes an argument: each argument's buffer holds after the line what it held before. -/
theorem kept_arg0 (V : Valuation τ sig (Elt F)) : after ops V (Proc.devRef .tc main_arg0) = V (Proc.devRef .tc main_arg0) := by
  simp only [after_append]; after_results_simp
theorem kept_arg1 (V : Valuation τ sig (Elt F)) : after ops V (Proc.devRef .tc main_arg1) = V (Proc.devRef .tc main_arg1) := by
  simp only [after_append]; after_results_simp
theorem kept_arg2 (V : Valuation τ sig (Elt F)) : after ops V (Proc.devRef .tc main_arg2) = V (Proc.devRef .tc main_arg2) := by
  simp only [after_append]; after_results_simp
theorem kept_arg3 (V : Valuation τ sig (Elt F)) : after ops V (Proc.devRef .tc main_arg3) = V (Proc.devRef .tc main_arg3) := by
  simp only [after_append]; after_results_simp
theorem kept_arg4 (V : Valuation τ sig (Elt F)) : after ops V (Proc.devRef .tc main_arg4) = V (Proc.devRef .tc main_arg4) := by
  simp only [after_append]; after_results_simp
theorem kept_arg5 (V : Valuation τ sig (Elt F)) : after ops V (Proc.devRef .tc main_arg5) = V (Proc.devRef .tc main_arg5) := by
  simp only [after_append]; after_results_simp

/-- The reference runs, and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (kept_arg0 _), (h c main_arg1).trans (kept_arg1 _),
      (h c main_arg2).trans (kept_arg2 _), (h c main_arg3).trans (kept_arg3 _), (h c main_arg4).trans (kept_arg4 _),
      (h c main_arg5).trans (kept_arg5 _)⟩)
    (run m ρ)

/-! ## The value rows -/

/-- After the first four operations the buffer of `V` holds `x·W1 + b1`: the product of the node features with the
    first weight matrix, plus the bias as a row repeated over the nodes. -/
theorem valV (V : Valuation τ sig (Elt F)) :
    after opsV V (Proc.devRef .tc main_v3)
      = addf (Host.dotGeneral dot_S50000x64_S64x64_S50000x64_1_0_0_1_n_n none (V (Proc.devRef .tc main_arg0)) (V (Proc.devRef .tc main_arg2)))
          (broadcastInDim S50000x64 ![0, 1] bcast_S1x64_S50000x64_0_1
            (broadcastInDim S1x64 ![1] bcast_S64_S1x64_1 (V (Proc.devRef .tc main_arg3)))) := by
  after_results

/-- Those four operations write no argument. -/
theorem keptV_arg0 (V : Valuation τ sig (Elt F)) : after opsV V (Proc.devRef .tc main_arg0) = V (Proc.devRef .tc main_arg0) := by
  after_results
theorem keptV_arg1 (V : Valuation τ sig (Elt F)) : after opsV V (Proc.devRef .tc main_arg1) = V (Proc.devRef .tc main_arg1) := by
  after_results
theorem keptV_arg2 (V : Valuation τ sig (Elt F)) : after opsV V (Proc.devRef .tc main_arg2) = V (Proc.devRef .tc main_arg2) := by
  after_results
theorem keptV_arg3 (V : Valuation τ sig (Elt F)) : after opsV V (Proc.devRef .tc main_arg3) = V (Proc.devRef .tc main_arg3) := by
  after_results
theorem keptV_arg4 (V : Valuation τ sig (Elt F)) : after opsV V (Proc.devRef .tc main_arg4) = V (Proc.devRef .tc main_arg4) := by
  after_results
theorem keptV_arg5 (V : Valuation τ sig (Elt F)) : after opsV V (Proc.devRef .tc main_arg5) = V (Proc.devRef .tc main_arg5) := by
  after_results

end Cert.ReferenceIdeal.Hand

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«416887_j60198261620972_3_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.Proj.lean ====
/-
  The projection  x ↦ x · W + b  at the ideal values, for any number of rows.

  `projF x w b` is the array whose entry (i, j) is  (∑ₖ x (i,k) · w (k,j)) + b j : 64 input features, 64 output
  features, the weights stored input-major. Two programs' spellings of it are read here at (i, j):

  * the kernel's: both operands rounded to the narrow format (no change at the ideal values), their plain product
    accumulated from zero, plus the bias row laid along every row;
  * the host's: the contraction of axis 1 of x with axis 0 of w, plus the bias made a row and then repeated.

  Both are `projF`. Nothing here needs the entries to be finite: only the definitions of the operations are used.
-/
import proofs.«416887_j60198261620972_3_alg».proof.Proof.LibRows
import proofs.«416887_j60198261620972_3_alg».proof.Proof.LibPlainAny
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Proj

open Idealize.ShloMosaic Idealize.ShloMosaic.ValueIdx Idealize.ShloMosaic.Rows

variable {N : ℕ}

/-- Rows of 64 features sent through the affine map with weights `w` (input-major) and bias `b`. -/
def projF (x : FVec Ideal ⟨2, ![N, 64]⟩ .f32) (w : FVec Ideal ⟨2, ![64, 64]⟩ .f32) (b : FVec Ideal ⟨1, ![64]⟩ .f32) :
    FVec Ideal ⟨2, ![N, 64]⟩ .f32 :=
  ofRows fun i j => (∑ k : Fin 64, x (ix2 i k) * w (ix2 k j)) + b (ix1 j)

theorem projF_apply (x : FVec Ideal ⟨2, ![N, 64]⟩ .f32) (w : FVec Ideal ⟨2, ![64, 64]⟩ .f32) (b : FVec Ideal ⟨1, ![64]⟩ .f32)
    (i : Fin N) (j : Fin 64) : projF x w b (ix2 i j) = (∑ k : Fin 64, x (ix2 i k) * w (ix2 k j)) + b (ix1 j) := rfl

/-- The kernel's spelling at (i, j), the bias given as a 1 × 64 row: the sum over k plus the row's entry j. -/
theorem kernel_affine_apply (x : FVec Ideal ⟨2, ![N, 64]⟩ .f32) (w : FVec Ideal ⟨2, ![64, 64]⟩ .f32)
    (brow : FVec Ideal ⟨2, ![1, 64]⟩ .f32) (h₁ h₂) (sc : (⟨2, ![1, 64]⟩ : Shape).ShapeCasts ⟨2, ![1, 64]⟩)
    (bc : (⟨2, ![1, 64]⟩ : Shape).Broadcasts ⟨2, ![N, 64]⟩) (i : Fin N) (j : Fin 64) :
    addf (matmul (DotDims.plain N 64 64) none (truncf .bf16 x h₁) (truncf .bf16 w h₂) (constant ⟨2, ![N, 64]⟩ .f32 0x00000000#32))
        (broadcastTo ⟨2, ![N, 64]⟩ (shapeCast ⟨2, ![1, 64]⟩ brow sc) bc) (ix2 i j)
      = (∑ k : Fin 64, x (ix2 i k) * w (ix2 k j)) + brow (ix2 (0 : Fin 1) j) := by
  rw [addf_apply, matmul_plain_any, broadcastTo_1b_ab_apply, shapeCast_self]
  rfl

/-- The host's spelling is `projF`. -/
theorem host_affine (x : FVec Ideal ⟨2, ![N, 64]⟩ .f32) (w : FVec Ideal ⟨2, ![64, 64]⟩ .f32) (b : FVec Ideal ⟨1, ![64]⟩ .f32)
    (b1 : (⟨1, ![64]⟩ : Shape).BroadcastsInDim ⟨2, ![1, 64]⟩ ![1])
    (b2 : (⟨2, ![1, 64]⟩ : Shape).BroadcastsInDim ⟨2, ![N, 64]⟩ ![0, 1]) :
    addf (Host.dotGeneral (DotDims.plain N 64 64) none x w)
        (broadcastInDim ⟨2, ![N, 64]⟩ ![0, 1] b2 (broadcastInDim ⟨2, ![1, 64]⟩ ![1] b1 b))
      = projF x w b := by
  refine ext_ix2 fun i j => ?_
  rw [addf_apply, dotGeneral_plain_apply, Idealize.ShloMosaic.broadcastInDim_oneRow_apply, projF_apply]
  have e : broadcastInDim ⟨2, ![1, 64]⟩ ![1] b1 b (ix2 (0 : Fin 1) j) = b (ix1 j) :=
    broadcastInDim_apply ![1] b1 b (ix2 (0 : Fin 1) j) (ix1 j) fun a => by
      match a with
      | ⟨0, _⟩ => rfl
  rw [e]

end Cert.Proj

end
-- ==== Proof.KIValue.lean ====
/-
  What the launch leaves in its output array, at the ideal values.

  The pipeline runs ten grid points. Point t stages rows 5000·t … 5000·t + 4999 of x, the whole 64 × 64 weight
  matrix and the bias laid out as one row, and writes back  rows · W + bias  into rows 5000·t … of the output.
  Read entry by entry, what point t writes back is block t of one array: the projection  x · W + b  of all 50000
  rows. The ten blocks tile the output, so after the run the output array is that projection.
-/
import proofs.«416887_j60198261620972_3_alg».proof.Proof.KIRun
import proofs.«416887_j60198261620972_3_alg».proof.Proof.LibRows
import proofs.«416887_j60198261620972_3_alg».proof.Proof.LibPlainAny
import Idealize.ShloMosaic.Lib.ValueIdx
import Idealize.ShloMosaic.Lib.ValueLayout
import Idealize.ShloMosaic.Lib.Pipeline.Value
import proofs.«416887_j60198261620972_3_alg».proof.Proof.Proj

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Idealize.ShloMosaic.Ideal) ℓ)

/-! ## Index arithmetic of the four windows -/

theorem zeros2 : (![0, 0] : Fin 2 → Nat) = fun _ => 0 := funext fun a => by fin_cases a <;> rfl

/-- The printed index maps, decided over the ten grid points: the block of rows of `x` and the output block move
    together, one block per point; the weight matrix and the bias row stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000·t + p` of the array. -/
theorem row_lt (t : Fin cfg0.N) (p : Fin 5000) : t.val * 5000 + p.val < 50000 := by
  have ht : t.val < 10 := Nat.lt_of_lt_of_eq t.isLt (show cfg0.N = 10 from N_0)
  have hp := p.isLt
  omega

/-! ## The input blocks, read off the arguments -/

/-- Point `t`'s block of `x` at (p, k) is `x` at row `5000·t + p`, column `k`. -/
theorem rows_read (c : Dev nD) (t : Fin cfg0.N) (p : Fin 5000) (k : Fin 64) :
    (iblk m c 0 t : Vec Idealize.ShloMosaic.Ideal S5000x64 .f32) (ix2 p k)
      = (m ((c : Thread nD τ).loc main_arg0) : S50000x64.Idx → Elt Idealize.ShloMosaic.Ideal .f32) (ix2 ⟨t.val * 5000 + p.val, row_lt t p⟩ k) := by
  obtain ⟨e0, e1, -⟩ := index_facts t
  unfold iblk
  rw [View.read_apply]
  show V m c main_arg0 _ = _
  rw [V_arg m c main_arg0 (by decide)]
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The block of weights is the whole matrix, at every point. -/
theorem weights_read (c : Dev nD) (t : Fin cfg0.N) (k q : Fin 64) :
    (iblk m c 1 t : Vec Idealize.ShloMosaic.Ideal S64x64 .f32) (ix2 k q)
      = (m ((c : Thread nD τ).loc main_arg2) : S64x64.Idx → Elt Idealize.ShloMosaic.Ideal .f32) (ix2 k q) := by
  obtain ⟨-, -, e0, e1, -⟩ := index_facts t
  unfold iblk
  rw [View.read_apply]
  show V m c main_arg2 _ = _
  rw [V_arg m c main_arg2 (by decide)]
  congr 1
  funext a
  apply Fin.ext
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The array the bias window stages is the bias vector laid out as one row: an early line of the program makes it. -/
theorem bias_row (c : Dev nD) :
    (V m c main_v4 : S1x64.Idx → Elt Idealize.ShloMosaic.Ideal .f32)
      = shapeCast S1x64 (m ((c : Thread nD τ).loc main_arg3) : S64.Idx → Elt Idealize.ShloMosaic.Ideal .f32) shapeCasts_S64_S1x64 := by
  dsimp only [V, V0]
  simp only [hostOps0, List.flatten_cons, List.flatten_nil, List.append_nil]
  after_results
  rfl

/-- The block of the bias row at (0, q) is the bias at `q`, at every point. -/
theorem bias_read (c : Dev nD) (t : Fin cfg0.N) (q : Fin 64) :
    (iblk m c 2 t : Vec Idealize.ShloMosaic.Ideal S1x64 .f32) (ix2 (0 : Fin 1) q)
      = (m ((c : Thread nD τ).loc main_arg3) : S64.Idx → Elt Idealize.ShloMosaic.Ideal .f32) (ix1 q) := by
  obtain ⟨-, -, -, -, e0, e1, -⟩ := index_facts t
  unfold iblk
  rw [View.read_apply]
  show (V m c main_v4 : S1x64.Idx → Elt Idealize.ShloMosaic.Ideal .f32) _ = _
  rw [bias_row m c]
  refine Eq.trans (congrArg _ ?_) (shapeCast_a_1a_apply _ shapeCasts_S64_S1x64 (0 : Fin 1) q)
  funext a
  apply Fin.ext
  match a with
  | ⟨0, _⟩ => show win0_2.index t (0 : Fin 2) * 1 + 1 * 0 = 0; rw [e0]
  | ⟨1, _⟩ => show win0_2.index t (1 : Fin 2) * 64 + 1 * q.val = q.val; rw [e1]; omega

/-! ## One grid point's payload, entry by entry -/

/-- The body's payload at (p, q): row `p` of the block against column `q` of the weights, plus the bias row's entry `q`. -/
theorem pay_apply (xb : Vec Idealize.ShloMosaic.Ideal S5000x64 .f32) (w : Vec Idealize.ShloMosaic.Ideal S64x64 .f32)
    (bias : Vec Idealize.ShloMosaic.Ideal S1x64 .f32) (p : Fin 5000) (q : Fin 64) :
    k0_pay1 xb w bias (ix2 p q) = (∑ k : Fin 64, xb (ix2 p k) * w (ix2 k q)) + bias (ix2 (0 : Fin 1) q) := by
  unfold k0_pay1
  exact Cert.Proj.kernel_affine_apply (N := 5000) xb w bias _ _ _ _ p q

/-! ## From blocks to the array -/

/-- The projected features of all the rows, as a function of the three arguments. -/
abbrev projAll (c : Dev nD) : S50000x64.Idx → Elt Idealize.ShloMosaic.Ideal .f32 :=
  Cert.Proj.projF (N := 50000) (m ((c : Thread nD τ).loc main_arg0)) (m ((c : Thread nD τ).loc main_arg2)) (m ((c : Thread nD τ).loc main_arg3))

/-- What point `t` writes back is block `t` of the projected features. -/
theorem flushed_eq (c : Dev nD) (t : Fin cfg0.N) :
    (dats m 0 c).flushed 3 t = ((cfg0.win 3).blk t).view.read (Elt Idealize.ShloMosaic.Ideal) (projAll m c) := by
  show (cfg0.win 3).cut (grid0.coords t) ((dats m 0 c).after 3 t) = _
  rw [after_out]
  unfold projBlock
  rw [View.canon_unit_zero zeros2]
  simp only [View.ld_unit_zero (S := S5000x64) zeros2, View.ld_unit_zero (S := S64x64) zeros2, View.ld_unit_zero (S := S1x64) zeros2]
  obtain ⟨-, -, -, -, -, -, e0, e1⟩ := index_facts t
  funext j
  obtain ⟨p, q, rfl⟩ : ∃ (p : Fin 5000) (q : Fin 64), j = ix2 p q := ⟨j 0, j 1, eq_ix2 j⟩
  have hemb : ((cfg0.win 3).blk t).view.emb (ix2 p q) = (ix2 ⟨t.val * 5000 + p.val, row_lt t p⟩ q : S50000x64.Idx) := by
    funext a
    apply Fin.ext
    match a with
    | ⟨0, _⟩ => show win0_3.index t (0 : Fin 2) * 5000 + 1 * p.val = t.val * 5000 + p.val; rw [e0]; omega
    | ⟨1, _⟩ => show win0_3.index t (1 : Fin 2) * 64 + 1 * q.val = q.val; rw [e1]; omega
  show k0_pay1 (iblk m c 0 t) (iblk m c 1 t) (iblk m c 2 t) (ix2 p q) = projAll m c (((cfg0.win 3).blk t).view.emb (ix2 p q))
  rw [hemb, pay_apply, bias_read m c t q]
  refine (congrArg (· + _) (Finset.sum_congr rfl fun k _ => ?_)).trans (Cert.Proj.projF_apply _ _ _ _ q).symm
  rw [rows_read m c t p k, weights_read m c t k q]

/-- An index of the array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every row lies in some point's block: row `r` in the block of point `r / 5000`. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_3 _, ?_⟩
  obtain ⟨-, -, -, -, -, -, e0, e1⟩ := index_facts ⟨(i 0).val / 5000, by rw [hN]; omega⟩
  rw [mem_blk]
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e1]; omega

/-- After the run the output array of the launch holds the projected features of all the rows. -/
theorem out_array (m : (ℓ : Loc nD τ sig) → Buf (Elt Idealize.ShloMosaic.Ideal) ℓ) (c : Dev nD) :
    (dats m 0 c).arrAt 3 cfg0.N = Cert.Proj.projF (N := 50000) (m ((c : Thread nD τ).loc main_arg0)) (m ((c : Thread nD τ).loc main_arg2)) (m ((c : Thread nD τ).loc main_arg3)) :=
  (dats m 0 c).arrAt_eq_of_cover 3 (projAll m c) (fun t _ => flushed_eq m c t) covered

end Cert.KernelIdeal.Hand

end
-- ==== Proof.Tail.lean ====
/-
  After the projected features V, the two programs compute the same thing.

  Both take x, the second layer's weights and bias, the edge list and V, and compute: Q = relu(x·W2 + b2);
  each row of Q normalised by its mean and variance; the row sums squared, h; h gathered through the source
  and destination rows of the edge list (negative entries wrapped by 50000); the cosine of the scaled
  differences, scaled by π over twice the range of h[src] plus 1e-10; its segment sum over the source nodes;
  the attention divided by its segment's sum, plus 1e-10; V gathered through the destinations, weighted, and
  summed into the source nodes. The kernel's program slices the edge list before its launch and the reference
  after h, so the two lists of operations differ in order and in the names of their buffers, but read back as
  functions of those five inputs they are one and the same term, at any float family.
-/
import proofs.«416887_j60198261620972_3_alg».proof.Proof.RefOps
import proofs.«416887_j60198261620972_3_alg».proof.Proof.KIHost

set_option maxRecDepth 16384

noncomputable section

namespace Cert.Bridge

open Idealize.ShloMosaic Idealize.ShloMosaic.TcCoe Idealize.SL.Sem Idealize.ShloMosaic.StableHlo

variable {F : FTy → Type} [FloatOps F]

attribute [local irreducible] Host.reduce Host.reduceAdd Host.gather Host.scatterAdd in
set_option maxHeartbeats 4000000 in
/-- The reference's operations after V and the kernel program's later lines end at the same result, from contents
    that agree on x, the second layer, V and the edge list. -/
theorem tail_agree
    (M W : Valuation Cert.KernelIdeal.τ Cert.KernelIdeal.sig (Elt F))
    (W' : Valuation Cert.ReferenceIdeal.τ Cert.ReferenceIdeal.sig (Elt F))
    (hx : W' (Proc.devRef .tc Cert.ReferenceIdeal.main_arg0) = W (Proc.devRef .tc Cert.KernelIdeal.main_arg0))
    (hw : W' (Proc.devRef .tc Cert.ReferenceIdeal.main_arg4) = W (Proc.devRef .tc Cert.KernelIdeal.main_arg4))
    (hb : W' (Proc.devRef .tc Cert.ReferenceIdeal.main_arg5) = W (Proc.devRef .tc Cert.KernelIdeal.main_arg5))
    (hV : W' (Proc.devRef .tc Cert.ReferenceIdeal.main_v3) = W (Proc.devRef .tc Cert.KernelIdeal.main_v5))
    (he : W' (Proc.devRef .tc Cert.ReferenceIdeal.main_arg1) = M (Proc.devRef .tc Cert.KernelIdeal.main_arg1))
    (hsrc : W (Proc.devRef .tc Cert.KernelIdeal.main_v1)
      = after (Cert.KernelIdeal.Gen.hostOps0 (F := F)) M (Proc.devRef .tc Cert.KernelIdeal.main_v1))
    (hdst : W (Proc.devRef .tc Cert.KernelIdeal.main_v3)
      = after (Cert.KernelIdeal.Gen.hostOps0 (F := F)) M (Proc.devRef .tc Cert.KernelIdeal.main_v3)) :
    after (Cert.ReferenceIdeal.Hand.opsTail (F := F)) W' (Proc.devRef .tc Cert.ReferenceIdeal.main_v79)
      = after (Cert.KernelIdeal.Hand.laterOps (F := F)).flatten W (Proc.devRef .tc Cert.KernelIdeal.main_v77) := by
  simp only [Cert.ReferenceIdeal.Hand.opsTail, Cert.ReferenceIdeal.Hand.opsQ, Cert.ReferenceIdeal.Hand.opsRelu,
    Cert.ReferenceIdeal.Hand.opsMean, Cert.ReferenceIdeal.Hand.opsVar, Cert.ReferenceIdeal.Hand.opsRest0,
    Cert.ReferenceIdeal.Hand.opsRest1, Cert.KernelIdeal.Hand.laterOps, Cert.KernelIdeal.Gen.hostOps1,
    Cert.KernelIdeal.Gen.hostOps1_1, Cert.KernelIdeal.Gen.hostOps1_2, Cert.KernelIdeal.Gen.hostOps1_3,
    Cert.KernelIdeal.Gen.hostOps1_4, List.flatten_cons, List.flatten_nil, List.append_nil, List.cons_append,
    List.nil_append, List.append_assoc]
  after_results_simp
  rw [hsrc, hdst]
  simp only [Cert.KernelIdeal.Gen.hostOps0]
  after_results_simp
  simp only [hx, hw, hb, hV, he, TRef.ofBuf, TRef.toBuf, cast_eq]
  rfl

end Cert.Bridge

end
-- ==== Proof.Bridge.lean ====
/-
  The two idealized programs end with equal results.

  The kernel's program leaves in its output array the projection  x · W1 + b1  (block by block, read back as one
  array); the reference computes the same array with one contraction and two broadcasts. From there on both apply
  the same function of x, the second layer, the edge list and that array (`tail_agree`). So from memories that
  agree on the six arguments, the two runs end at one and the same result, element by element on the extended reals.
-/
import proofs.«416887_j60198261620972_3_alg».proof.Defs
import proofs.«416887_j60198261620972_3_alg».proof.Proof.Gen.Pre_finite_inputs
import proofs.«416887_j60198261620972_3_alg».proof.Proof.KIRun
import proofs.«416887_j60198261620972_3_alg».proof.Proof.KIValue
import proofs.«416887_j60198261620972_3_alg».proof.Proof.RefRun
import proofs.«416887_j60198261620972_3_alg».proof.Proof.Tail
import proofs.«416887_j60198261620972_3_alg».proof.Proof.Proj

set_option maxRecDepth 16384

noncomputable section

namespace Cert.Bridge

open Idealize.ShloMosaic Idealize.ShloMosaic.TcCoe Idealize.SL.Sem Idealize.ShloMosaic.StableHlo

local notation "𝕀" => Idealize.ShloMosaic.Ideal

/-- The reference's first four lines compute the projection. -/
theorem ref_proj (M' : Valuation Cert.ReferenceIdeal.τ Cert.ReferenceIdeal.sig (Elt 𝕀)) :
    after (Cert.ReferenceIdeal.Hand.opsV (F := 𝕀)) M' (Proc.devRef .tc Cert.ReferenceIdeal.main_v3)
      = Cert.Proj.projF (N := 50000) (M' (Proc.devRef .tc Cert.ReferenceIdeal.main_arg0))
          (M' (Proc.devRef .tc Cert.ReferenceIdeal.main_arg2)) (M' (Proc.devRef .tc Cert.ReferenceIdeal.main_arg3)) := by
  rw [Cert.ReferenceIdeal.Hand.valV]
  exact Cert.Proj.host_affine (N := 50000) _ _ _ _ _

/-- The reference's whole fold at its result is the kernel program's later lines' fold at its result, from launch
    memories that agree on the six arguments. -/
theorem result_eq
    (m : (ℓ : Loc Cert.KernelIdeal.nD Cert.KernelIdeal.τ Cert.KernelIdeal.sig) → Buf (Elt 𝕀) ℓ)
    (m' : (ℓ : Loc Cert.ReferenceIdeal.nD Cert.ReferenceIdeal.τ Cert.ReferenceIdeal.sig) → Buf (Elt 𝕀) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.Hand.ops (F := 𝕀)) (launchContents m' c) (Proc.devRef .tc Cert.ReferenceIdeal.main_v79)
      = Pipeline.afterTail₀ Cert.KernelIdeal.cfgs (Cert.KernelIdeal.Hand.dats m) 0 (Cert.KernelIdeal.Hand.V0 m)
          Cert.KernelIdeal.Hand.laterOps c Cert.KernelIdeal.main_v77 := by
  unfold Pipeline.afterTail₀
  show after (Cert.ReferenceIdeal.Hand.opsV ++ Cert.ReferenceIdeal.Hand.opsTail) _ _ = _
  rw [after_append]
  refine tail_agree (fun b => m (c, b)) _ _ ?hx ?hw ?hb ?hV ?he ?hsrc ?hdst
  case hx =>
    have hA : Pipeline.withArrays (Cert.KernelIdeal.cfgs 0).spec c (Cert.KernelIdeal.Hand.V0 m c)
          (fun w => (Cert.KernelIdeal.Hand.dats m 0 c).arrAt w (Cert.KernelIdeal.cfgs 0).N) (Proc.devRef .tc Cert.KernelIdeal.main_arg0)
        = m ((c.tc : Thread Cert.KernelIdeal.nD Cert.KernelIdeal.τ).loc Cert.KernelIdeal.main_arg0) :=
      (Pipeline.withArrays_arr _ Cert.KernelIdeal.Gen.launch0.win.arr_inj c _ _ (0 : Fin 4)).trans
        (((Cert.KernelIdeal.Hand.dats m 0 c).arrAt_in 0 rfl _).trans
          ((Cert.KernelIdeal.Hand.A_eq m c 0).trans (Cert.KernelIdeal.Hand.V_arg m c Cert.KernelIdeal.main_arg0 (by decide))))
    rw [Cert.ReferenceIdeal.Hand.keptV_arg0]
    exact h0.trans hA.symm
  case hw =>
    rw [Cert.ReferenceIdeal.Hand.keptV_arg4,
      Pipeline.withArrays_of_ne _ c _ _ Cert.KernelIdeal.main_arg4 (by decide)]
    exact h4.trans (Cert.KernelIdeal.Hand.V_arg m c Cert.KernelIdeal.main_arg4 (by decide)).symm
  case hb =>
    rw [Cert.ReferenceIdeal.Hand.keptV_arg5,
      Pipeline.withArrays_of_ne _ c _ _ Cert.KernelIdeal.main_arg5 (by decide)]
    exact h5.trans (Cert.KernelIdeal.Hand.V_arg m c Cert.KernelIdeal.main_arg5 (by decide)).symm
  case hV =>
    have hO : Pipeline.withArrays (Cert.KernelIdeal.cfgs 0).spec c (Cert.KernelIdeal.Hand.V0 m c)
          (fun w => (Cert.KernelIdeal.Hand.dats m 0 c).arrAt w (Cert.KernelIdeal.cfgs 0).N) (Proc.devRef .tc Cert.KernelIdeal.main_v5)
        = Cert.Proj.projF (N := 50000) (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) :=
      (Pipeline.withArrays_arr _ Cert.KernelIdeal.Gen.launch0.win.arr_inj c _ _ (3 : Fin 4)).trans
        (Cert.KernelIdeal.Hand.out_array m c)
    rw [ref_proj]
    refine Eq.trans ?_ hO.symm
    show Cert.Proj.projF (N := 50000)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = _
    rw [h0, h2, h3]
  case he =>
    rw [Cert.ReferenceIdeal.Hand.keptV_arg1]
    exact h1
  case hsrc =>
    rw [Pipeline.withArrays_of_ne _ c _ _ Cert.KernelIdeal.main_v1 (by decide)]
    rfl
  case hdst =>
    rw [Pipeline.withArrays_of_ne _ c _ _ Cert.KernelIdeal.main_v3 (by decide)]
    rfl

/-- Both idealized programs run, from memories that agree on the arguments, to one and the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Pipeline.afterTail₀ Cert.KernelIdeal.cfgs (Cert.KernelIdeal.Hand.dats m) 0 (Cert.KernelIdeal.Hand.V0 m)
      Cert.KernelIdeal.Hand.laterOps c Cert.KernelIdeal.main_v77, Cert.KernelIdeal.Hand.run_result (F := 𝕀) m ρ, ?_⟩
  refine (θ_run Cert.ReferenceIdeal.defs _ _).mono (fun _ h c => ?_) (Cert.ReferenceIdeal.Hand.run (F := 𝕀) m' ρ')
  obtain ⟨h0, h1, h2, h3, h4, h5⟩ := hagree c
  exact ⟨(h c Cert.ReferenceIdeal.main_v79).trans (result_eq m m' c h0 h1 h2 h3 h4 h5),
    (h c Cert.ReferenceIdeal.main_arg0).trans (Cert.ReferenceIdeal.Hand.kept_arg0 _),
    (h c Cert.ReferenceIdeal.main_arg1).trans (Cert.ReferenceIdeal.Hand.kept_arg1 _),
    (h c Cert.ReferenceIdeal.main_arg2).trans (Cert.ReferenceIdeal.Hand.kept_arg2 _),
    (h c Cert.ReferenceIdeal.main_arg3).trans (Cert.ReferenceIdeal.Hand.kept_arg3 _),
    (h c Cert.ReferenceIdeal.main_arg4).trans (Cert.ReferenceIdeal.Hand.kept_arg4 _),
    (h c Cert.ReferenceIdeal.main_arg5).trans (Cert.ReferenceIdeal.Hand.kept_arg5 _)⟩

end Cert.Bridge

end
-- ==== Proof.lean ====
/-
  The projection-and-attention kernel against its jnp reference, over the extended reals.

  The kernel's program computes the node features  V = x · W1 + b1  in a Pallas kernel (ten blocks of 5000 rows,
  operands rounded to the narrow format before the product) and everything else — the rectified second layer, its
  rows normalised and summed and squared, the gathers through the edge list, the cosine attention, its segment
  sums, the weighted V rows summed into their source nodes — in host operations; the reference computes all of it
  in host operations. Claimed and proved here:

  * each of the three printed programs runs to the end without a fault and leaves its six arguments unchanged
    (for the two with the kernel: the body meets the pipeline's obligation at every grid point, the host lines
    after the launch keep clear of the staged arrays; for the reference: a straight line of 127 operations);
  * the idealized kernel program is the printed one read at the ideal values: the ideal pass rewrote nothing, so
    there is nothing to state;
  * at the ideal values the two idealized programs, from memories agreeing on the arguments, end with the same
    result: V is the same array on both sides — a change of float format is the identity there and both products
    are the one sum over the contracted axis —, and after V the two programs are the same function of it.
  No entry needs to be finite for any of this: only the operations' definitions are used.
-/
import proofs.«416887_j60198261620972_3_alg».proof.Defs
import proofs.«416887_j60198261620972_3_alg».proof.Proof.Gen.Kernel
import proofs.«416887_j60198261620972_3_alg».proof.Proof.Gen.KernelIdeal
import proofs.«416887_j60198261620972_3_alg».proof.Proof.Gen.ReferenceIdeal
import proofs.«416887_j60198261620972_3_alg».proof.Proof.Gen.Pre_finite_inputs
import proofs.«416887_j60198261620972_3_alg».proof.Proof.KRun
import proofs.«416887_j60198261620972_3_alg».proof.Proof.KIRun
import proofs.«416887_j60198261620972_3_alg».proof.Proof.RefRun
import proofs.«416887_j60198261620972_3_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Idealize.ShloMosaic.Ideal) m ρ,
    fun m ρ _ => Cert.ReferenceIdeal.Hand.frame (F := Idealize.ShloMosaic.Ideal) m ρ,
    trivial,
    Cert.Bridge.algebraic⟩

end Cert.Proof

end
